-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S4096x128 : Shape := ⟨2, ![4096, 128]⟩
abbrev S4096x1 : Shape := ⟨2, ![4096, 1]⟩
abbrev S1024x512 : Shape := ⟨2, ![1024, 512]⟩
abbrev S2048x512 : Shape := ⟨2, ![2048, 512]⟩
abbrev S2048 : Shape := ⟨1, ![2048]⟩
abbrev S1024x2048 : Shape := ⟨2, ![1024, 2048]⟩
abbrev S1x2048 : Shape := ⟨2, ![1, 2048]⟩

abbrev nBuf : Space → Nat
  | .hbm => 5
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S8192x4096, .f32⟩
  | .local _ .vmem, ⟨0, _⟩ => ⟨S4096x128, .f32⟩
  | .local _ .vmem, ⟨1, _⟩ => ⟨S4096x128, .f32⟩
  | .local _ .vmem, ⟨2, _⟩ => ⟨S4096x128, .bf16⟩
  | .local _ .vmem, ⟨3, _⟩ => ⟨S4096x128, .bf16⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | .local _ .vmem, ⟨7, _⟩ => ⟨S2048x512, .bf16⟩
  | .local _ .vmem, ⟨8, _⟩ => ⟨S2048, .f32⟩
  | .local _ .vmem, ⟨9, _⟩ => ⟨S2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  broadcasts_S4096x1_S4096x128 : S4096x1.Broadcasts S4096x128
  bitsLt_bf16_f32 : FTy.bits .bf16 < FTy.bits .f32
  packedbf16_S4096x128_S4096x128_0_0 : (Rect.unit (s := S4096x128) ![0, 0] S4096x128.size inb_S4096x128_S4096x128_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x4096.size a
  hwx0_0 : ∀ i : grid0.Coords, EltTy.bits .f32 = 32 ∨ (Rect.block (s := S4096x4096) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x4096.size a
  hwx0_1 : ∀ i : grid0.Coords, EltTy.bits .bf16 = 32 ∨ (Rect.block (s := S4096x4096) S4096x128.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S4096.size a
  hwx1_2 : ∀ i : grid1.Coords, EltTy.bits .f32 = 32 ∨ (Rect.block (s := S4096) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S131072x128 : Shape := ⟨2, ![131072, 128]⟩
abbrev S_ : Shape := ⟨0, ![]⟩
abbrev S131072 : Shape := ⟨1, ![131072]⟩
abbrev S131072x1 : Shape := ⟨2, ![131072, 1]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S131072x128, .f32⟩
  | .hbm, ⟨4, _⟩ => ⟨S131072x128, .f32⟩
  | .hbm, ⟨5, _⟩ => ⟨S_, .f32⟩
  | .hbm, ⟨6, _⟩ => ⟨S131072, .f32⟩
  | .hbm, ⟨7, _⟩ => ⟨S131072x1, .f32⟩
  | .hbm, ⟨8, _⟩ => ⟨S_, .f32⟩
  | .hbm, ⟨9, _⟩ => ⟨S131072x1, .f32⟩
  | .hbm, ⟨10, _⟩ => ⟨S131072x1, .f32⟩
  | .hbm, ⟨11, _⟩ => ⟨S_, .f32⟩
  | .hbm, ⟨12, _⟩ => ⟨S131072x1, .f32⟩
  | .hbm, ⟨13, _⟩ => ⟨S131072x1, .i1⟩
  | .hbm, ⟨14, _⟩ => ⟨S_, .f32⟩
  | .hbm, ⟨15, _⟩ => ⟨S131072x1, .f32⟩
  | .hbm, ⟨16, _⟩ => ⟨S131072x1, .f32⟩
  | .hbm, ⟨17, _⟩ => ⟨S131072x128, .f32⟩
  | .hbm, ⟨18, _⟩ => ⟨S131072x128, .f32⟩
  | .hbm, ⟨19, _⟩ => ⟨S131072x128, .f32⟩
  | .hbm, ⟨20, _⟩ => ⟨S_, .i32⟩
  | .hbm, ⟨21, _⟩ => ⟨S_, .i32⟩
  | .hbm, ⟨22, _⟩ => ⟨S_, .f32⟩
  | .hbm, ⟨23, _⟩ => ⟨S131072x128, .f32⟩
  | .hbm, ⟨24, _⟩ => ⟨S131072x128, .f32⟩
  | .hbm, ⟨25, _⟩ => ⟨S_, .f32⟩
  | .hbm, ⟨26, _⟩ => ⟨S131072x128, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S4096x4096, .f32⟩
  | .hbm, ⟨31, _⟩ => ⟨S4096x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_c_3 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  shapeCasts_S4096x4096_S131072x128 : S4096x4096.ShapeCasts S131072x128
  reducesTo_S131072x128_S131072_d1 : S131072x128.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x128_0_1 : S131072x1.BroadcastsInDim S131072x128 (![0, 1] : Fin 2 → Fin S131072x128.rank)
  bcast_S_S131072x128 : S_.BroadcastsInDim S131072x128 (![] : Fin 0 → Fin S131072x128.rank)
  shapeCasts_S131072x128_S4096x4096 : S131072x128.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KFrame0.lean ====
/-
  The first pallas_call (the group-wise quantise / dequantise of the weight), as one region of the program,
  stated at ANY contents `V` of the core's buffers when the region is entered.

  The grid has 32 points; point `t` stages the 4096 x 128 column block `t` of the weight, and writes back the
  4096 x 128 column block `t` of the dequantised weight. The body reads its input block whole, and stores one
  value, a pure function of that block, over the whole output block. So after the body the input's staging buffer
  holds the block it held, and the output's holds that function of the block; nothing else of the core's state is
  touched, and nothing is owed.
-/
import proofs.«145101_j19799799234864_1_alg».proof.Proof.Gen.Kernel.Launch
import proofs.«145101_j19799799234864_1_alg».proof.Proof.Gen.Kernel.Skeleton
import proofs.«145101_j19799799234864_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds the point's block of the weight, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: a whole 4096 x 128 block. -/
abbrev r0_0 : Rect S4096x128 := Rect.unit (s := S4096x128) ![0, 0] S4096x128.size inb_S4096x128_S4096x128_0_0

/-- What the body leaves in the output's staging buffer: its one store, of the dequantised block. -/
def out0_1 (x0 : Vec F S4096x128 .f32) : Vec F S4096x128 .bf16 :=
  View.canon [⟨r0_0, k0_pay1 (View.ld x0 r0_0)⟩]

/-- The one store covers the block. -/
theorem cover0_1 (p0 : Vec F S4096x128 .bf16) (y : S4096x128.Idx) :
    ∃ pc ∈ ([⟨r0_0, p0⟩] : List (View.Piece (Elt F) S4096x128 .bf16)), y ∈ pc.1.set :=
  View.cover_of_tiled [⟨r0_0, p0⟩] S4096x128.size (by rfl) y

set_option maxHeartbeats 1000000 in
/-- The body on whole staging buffers: the input's kept, the output's left at `out0_1` of the input's. -/
theorem sound_kernel0 (c : Dev nD) (E : Set ℕ) (i : grid0.Coords) (arg1 : Memref sig .tc .vmem S4096x128 .f32) (harg1 : arg1.IsWhole)
    (arg2 : Memref sig .tc .vmem S4096x128 .bf16) (harg2 : arg2.IsWhole)
    (x0 : Vec F S4096x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quant_dequant_kernel i arg1 harg1 arg2 harg2) K := by
  simp only [cc0__quant_dequant_kernel_eq_skeleton]; unfold cc0__quant_dequant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pallas_call on core `c`: the arrays as the region finds them; after the body at
    point `t` the input's buffer at its block and the output's at `out0_1` of it; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KFrame1Runs.lean ====
/-
  The second pallas_call (the tiled matrix product with the bias added at the last step), as one region of the
  program, stated at ANY contents `V` of the core's buffers when the region is entered: what the runs share.

  The grid is 8 x 2 x 8, the last axis the reduction over column blocks of 512. At the point with reduction
  coordinate `k` the body clears its accumulator (a scratch buffer the kernel keeps between points) when `k = 0`,
  adds the product of the staged 1024 x 512 block of the input and the staged 2048 x 512 block of the dequantised
  weight (contracted on their columns) to it, and when `k = 7` stores accumulator + bias row into the output block.
  Three control cases: first step (A), middle step (B), last step (C). The output window is idle (not stored, not
  written back) except in case C.
-/
import proofs.«145101_j19799799234864_1_alg».proof.Proof.Gen.Kernel.Launch
import proofs.«145101_j19799799234864_1_alg».proof.Proof.Gen.Kernel.Skeleton
import proofs.«145101_j19799799234864_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's current staging buffer holds the point's block of its array, fetched there or not (an input not
    fetched at a point has the block index it had at the point before). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end Blocks

/-! ## The body's two branch conditions, in closed form over the grid -/

/-- "This is the first reduction step": the body's first `scf.if`. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last reduction step": the body's second `scf.if`. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last reduction step the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last reduction step it is live. -/
theorem liveAt1_3 : ∀ t : Fin cfg1.N, cond1_1 (grid1.coords t) → cfg1.idle 3 (grid1.coords t) = false := by decide +kernel

/-! ## The memrefs the body is called with -/

abbrev VO1_3 : View sig .tc .vmem S1024x2048 .f32 := (Memref.whole cc1_stg3_0 : Memref sig .tc .vmem S1024x2048 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x2048 .f32 := Memref.whole cc1_scratch0
abbrev VS1 : View sig .tc .vmem S1024x2048 .f32 := scM1.view

/-- The region's class invariant, with the accumulator owned as a memref at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1 fullShare d)) ∗ (∃ r, prngReg c r)) := by
  unfold Pipeline.ΦA; rw [scopedRest1_eq]; simp only [scM1, owns_whole]; try rfl

/-! ## The body's runs, one per control case: a subtype the run finds -/

set_option maxHeartbeats 2000000 in
/-- FIRST STEP. The accumulator at anything; the input and weight blocks kept; the accumulator left with the
    pieces the run finds. The bias and output buffers are not touched. -/
noncomputable def kernelRun1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) :
    { LS : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg7 fullShare d)
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 2000000 in
/-- MIDDLE STEP. The accumulator at what the point before left (`xs`). -/
noncomputable def kernelRun1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (xs : Vec F S1024x2048 .f32) :
    { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg7 fullShare xs
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 2000000 in
/-- LAST STEP. The accumulator at what the point before left; the bias block kept; the output's buffer at anything,
    left with the pieces the run finds. -/
noncomputable def kernelRun1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S2048 .f32) (xs : Vec F S1024x2048 .f32) :
    Σ' (L3 : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.KFrame1.lean ====
/-
  The second pallas_call as one region, at ANY entry contents `V`: what the accumulator and the output's staging
  buffer hold after each grid point, the proof data, and the body's obligation at every point.

  After point `n` the accumulator holds: at a first reduction step, what the first-step run leaves from the point's
  input and weight blocks; otherwise what the middle / last step run leaves from those blocks and from what the point
  before left. The output's staging buffer is named only at last steps (elsewhere the window is idle: a placeholder
  nothing consults). The invariant carried between points is the scoped rest with the accumulator at exactly these
  contents, and the generator register at some state; nothing is owed.
-/
import proofs.«145101_j19799799234864_1_alg».proof.Proof.KFrame1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (y : S1024x2048.Idx) :
    ∃ pc ∈ (kernelRun1_A c i arg3 harg3 arg4 harg4 arg5 harg5 arg6 harg6 arg7 harg7 hc0 hc1 x0 x1).1, y ∈ pc.1.set :=
  View.cover_of_tiledL (kernelRun1_A c i arg3 harg3 arg4 harg4 arg5 harg5 arg6 harg6 arg7 harg7 hc0 hc1 x0 x1).1 S1024x2048.size (by sl_kernel_rfl) y

/-- What the first step leaves in the accumulator. -/
def sout1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) : Vec F S1024x2048 .f32 :=
  VS1.read (Elt F) (VS1.writes (Elt F) VS1.junk (kernelRun1_A c i arg3 harg3 arg4 harg4 arg5 harg5 arg6 harg6 arg7 harg7 hc0 hc1 x0 x1).1)

theorem scover1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (xs : Vec F S1024x2048 .f32) (y : S1024x2048.Idx) :
    ∃ pc ∈ (kernelRun1_B c i arg3 harg3 arg4 harg4 arg5 harg5 arg6 harg6 arg7 harg7 hc0 hc1 x0 x1 xs).1, y ∈ pc.1.set :=
  View.cover_of_tiledL (kernelRun1_B c i arg3 harg3 arg4 harg4 arg5 harg5 arg6 harg6 arg7 harg7 hc0 hc1 x0 x1 xs).1 S1024x2048.size (by sl_kernel_rfl) y

/-- What a middle step leaves in the accumulator. -/
def sout1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (xs : Vec F S1024x2048 .f32) : Vec F S1024x2048 .f32 :=
  VS1.read (Elt F) (VS1.writes (Elt F) VS1.junk (kernelRun1_B c i arg3 harg3 arg4 harg4 arg5 harg5 arg6 harg6 arg7 harg7 hc0 hc1 x0 x1 xs).1)

theorem cover1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S2048 .f32) (xs : Vec F S1024x2048 .f32) (y : S1024x2048.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S1024x2048.size (by sl_kernel_rfl) y

/-- What the last step leaves in the output's staging buffer. -/
def out1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S2048 .f32) (xs : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs).1)

theorem scover1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S2048 .f32) (xs : Vec F S1024x2048 .f32) (y : S1024x2048.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S1024x2048.size (by sl_kernel_rfl) y

/-- What the last step leaves in the accumulator. -/
def sout1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S2048 .f32) (xs : Vec F S1024x2048 .f32) : Vec F S1024x2048 .f32 :=
  VS1.read (Elt F) (VS1.writes (Elt F) VS1.junk (kernelRun1_C c i arg3 harg3 arg4 harg4 arg5 harg5 arg6 harg6 arg7 harg7 hc0 hc1 x0 x1 x2 xs).2.1)

/-- The output's staging buffer where the window is idle: a placeholder nothing consults. -/
def idleOut : Vec F S1024x2048 .f32 := VO1_3.read (Elt F) (VO1_3.writes (Elt F) VO1_3.junk [])

/-! ## What the output's buffer and the accumulator hold after each point -/

/-- After the body at position `n`: (the output's staging buffer, the accumulator). -/
def outsAt1 (c : Dev nD) : (n : ℕ) → n < cfg1.N → Vec F S1024x2048 .f32 × Vec F S1024x2048 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (idleOut, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idleOut, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first reduction step. -/
theorem outsAt1_A (c : Dev nD) (t : Fin cfg1.N) (h0 : t.val % 8 = 0) (h1 : ¬t.val % 8 = 7) :
    outsAt1 V c t.val t.isLt = (idleOut, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a middle step: over what the point before left. -/
theorem outsAt1_B (c : Dev nD) (t : Fin cfg1.N) (h0 : ¬t.val % 8 = 0) (h1 : ¬t.val % 8 = 7) :
    outsAt1 V c t.val t.isLt = (idleOut, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: over what the point before left. -/
theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried between points -/

/-- Before position `n`: before the first point the class's invariant (the accumulator at anything); afterwards the
    scoped rest with the accumulator at what the point before left, and the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 128 := lt_of_lt_of_eq t.isLt (show cfg1.N = 128 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS_castSucc V c t, PhiS_zero V c _ _ hz, PhiA1_eq]
      iintro ⟨⟨⟨Ha, Hb, Hc, Hd, HS⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)).2 Set.univ _)
      isplitl [H0]; · iexact H0
      isplitl [H1]; · iexact H1
      isplitl [HS]; · iexact HS
      iintro ⟨H0, H1, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (scover1_A c _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Ha, Hb, Hc, Hd, HS⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)).2 Set.univ _)
      isplitl [H0]; · iexact H0
      isplitl [H1]; · iexact H1
      isplitl [HS]; · iexists _; iexact HS
      iintro ⟨H0, H1, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (scover1_A c _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by intro e; rw [e] at h0; exact h0 (Nat.zero_mod _)
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS_castSucc V c t, PhiS_pos V c _ _ hz]
      iintro ⟨⟨⟨Ha, Hb, Hc, Hd, HS⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS_castSucc V c t, PhiS_pos V c _ _ hz]
      iintro ⟨⟨⟨Ha, Hb, Hc, Hd, HS⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS]; · iexact HS
      iintro ⟨H0, H1, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (scover1_B c _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  iintro ⟨⟨Ha, Hb, Hc, Hd, HS⟩, Hg⟩
  isplitl [Ha Hb Hc Hd HS]
  · isplitl [Ha]; · iexact Ha
    isplitl [Hb]; · iexact Hb
    isplitl [Hc]; · iexact Hc
    isplitl [Hd]; · iexact Hd
    iexists _; iexact HS
  iexact Hg

end Cert.Kernel.Hand

end
-- ==== Proof.KRun.lean ====
/-
  The whole program: two kernel regions in a row, nothing between them on the host.

  Between the items a core's unscoped buffers are named: at launch the memory; after the first region the same with
  the dequantised weight's buffer at what that region's write-backs leave; after the second the same with the
  result's buffer at what its write-backs leave. Each region is entered from "every unscoped buffer at the
  boundary's contents, the generator register at some state, nothing owed" and left at the next boundary's; the
  launch deals the first such state and the last is read against the final memory. Every weakly fair execution
  terminates, and every final memory holds each unscoped buffer at the last boundary's contents: the arguments as
  launched (the frame), and the result at the second region's folded write-backs (what the value proof reads).
-/
import proofs.«145101_j19799799234864_1_alg».proof.Proof.KFrame0
import proofs.«145101_j19799799234864_1_alg».proof.Proof.KFrame1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => m (c, b)
/-- The same read at the TensorCore's references. -/
abbrev VA : (c : Dev nD) → (b : Ref sig .tc) → Buf (Elt F) ((c : Thread nD τ).loc b) := fun c b => W0 m c b
/-- At the first region's exit (the second's entry): its arrays at what the pipeline leaves, every other buffer as entered. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VB : (c : Dev nD) → (b : Ref sig .tc) → Buf (Elt F) ((c : Thread nD τ).loc b) := fun c b => W1 m c b
theorem hF0 (c : Dev nD) (w : Fin cfg0.W) : (dat0 (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)

/-- At the second region's exit. -/
def W2 (c : Dev nD) : Valuation τ sig (Elt F) :=
  Pipeline.withArrays spec1 c (W1 m c) fun w => (dat1 (VB m) c).arrAt w cfg1.N
theorem W2_arr (c : Dev nD) (w : Fin cfg1.W) :
    W2 m c (Proc.devRef .tc (Pipeline.arrRef spec1 w)) = (dat1 (VB m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev VC : (c : Dev nD) → (b : Ref sig .tc) → Buf (Elt F) ((c : Thread nD τ).loc b) := fun c b => W2 m c b
theorem hF1 (c : Dev nD) (w : Fin cfg1.W) : (dat1 (VB m) c).arrAt w cfg1.N = VC m c (Pipeline.arrRef spec1 w) :=
  (W2_arr m c w).symm
theorem hrest1 (c : Dev nD) : ∀ b, b ∉ Finset.univ.image (Pipeline.arrRef spec1) → VC m c b = VB m c b :=
  fun b hb => W2_of_ne m c b fun w e => hb (Finset.mem_image.mpr ⟨w, Finset.mem_univ _, e⟩)

/-! ## What the second region is entered with -/

/-- The input and the bias reach the second region as launched; the dequantised weight is what the first region left. -/
theorem VB_main_arg0 (c : Dev nD) : VB m c main_arg0 = m ((c : Thread nD τ).loc main_arg0) :=
  W1_of_ne m c main_arg0 (by decide)
theorem VB_main_arg2 (c : Dev nD) : VB m c main_arg2 = m ((c : Thread nD τ).loc main_arg2) :=
  W1_of_ne m c main_arg2 (by decide)
theorem VB_main_v0 (c : Dev nD) : VB m c main_v0 = (dat0 (VA m) c).arrAt 1 cfg0.N :=
  W1_arr m c 1
theorem VA_main_arg1 (c : Dev nD) : VA m c main_arg1 = m ((c : Thread nD τ).loc main_arg1) := rfl

/-! ## The end: the arguments as launched, the result as the second region left it -/

theorem W2_main_arg0 (c : Dev nD) : W2 m c (Proc.devRef .tc main_arg0) = m ((c : Thread nD τ).loc main_arg0) :=
  (W2_arr m c 0).trans (((dat1 (VB m) c).arrAt_in 0 rfl _).trans ((A_eq1 (VB m) c 0).trans (VB_main_arg0 m c)))
theorem W2_main_arg1 (c : Dev nD) : W2 m c (Proc.devRef .tc main_arg1) = m ((c : Thread nD τ).loc main_arg1) :=
  (W2_of_ne m c main_arg1 (by decide)).trans
    ((W1_arr m c 0).trans (((dat0 (VA m) c).arrAt_in 0 rfl _).trans (A_eq0 (VA m) c 0)))
theorem W2_main_arg2 (c : Dev nD) : W2 m c (Proc.devRef .tc main_arg2) = m ((c : Thread nD τ).loc main_arg2) :=
  (W2_arr m c 2).trans (((dat1 (VB m) c).arrAt_in 2 rfl _).trans ((A_eq1 (VB m) c 2).trans (VB_main_arg2 m c)))
theorem W2_main_v1 (c : Dev nD) : W2 m c (Proc.devRef .tc main_v1) = (dat1 (VB m) c).arrAt 3 cfg1.N :=
  W2_arr m c 3

/-! ## The proof data family and the thread state -/

abbrev adm : (p : Fin 2) → (pcfgs (F := F) p).Adm := fun p => (cfgs p).toPCfg_adm
/-- Each pipeline's proof data at its region's entry contents: a literal match. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The first region: entered from every unscoped buffer at launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from `W1`, left at `W2`. Its invariant carries the accumulator: before the first
    point it is the class's, after the last it gives the class's back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ (BI.emp : sProp 𝕄)
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (VB m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- THE FRAME: every weakly fair execution terminates, nothing faulting, the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

/-- THE RUN WITH THE RESULT NAMED: the result's buffer ends at the second region's folded write-backs, the
    arguments as launched. -/
theorem run_value : θ_run defs (onTc (τ := τ) (main (F := F))) ⟨m, fun _ => 0, ρ⟩ (fun r => ∀ c : Dev nD,
      r.2.mem ((c.tc : Thread nD τ).loc main_v1) = (dat1 (VB m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

end Cert.Kernel.Hand

end
-- ==== Proof.Frame0.lean ====
/-
  The first pallas_call (the group-wise quantise / dequantise of the weight), as one region of the program,
  stated at ANY contents `V` of the core's buffers when the region is entered.

  The grid has 32 points; point `t` stages the 4096 x 128 column block `t` of the weight, and writes back the
  4096 x 128 column block `t` of the dequantised weight. The body reads its input block whole, and stores one
  value, a pure function of that block, over the whole output block. So after the body the input's staging buffer
  holds the block it held, and the output's holds that function of the block; nothing else of the core's state is
  touched, and nothing is owed.
-/
import proofs.«145101_j19799799234864_1_alg».proof.Proof.Gen.KernelIdeal.Launch
import proofs.«145101_j19799799234864_1_alg».proof.Proof.Gen.KernelIdeal.Skeleton
import proofs.«145101_j19799799234864_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds the point's block of the weight, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: a whole 4096 x 128 block. -/
abbrev r0_0 : Rect S4096x128 := Rect.unit (s := S4096x128) ![0, 0] S4096x128.size inb_S4096x128_S4096x128_0_0

/-- What the body leaves in the output's staging buffer: its one store, of the dequantised block. -/
def out0_1 (x0 : Vec F S4096x128 .f32) : Vec F S4096x128 .bf16 :=
  View.canon [⟨r0_0, k0_pay1 (View.ld x0 r0_0)⟩]

/-- The one store covers the block. -/
theorem cover0_1 (p0 : Vec F S4096x128 .bf16) (y : S4096x128.Idx) :
    ∃ pc ∈ ([⟨r0_0, p0⟩] : List (View.Piece (Elt F) S4096x128 .bf16)), y ∈ pc.1.set :=
  View.cover_of_tiled [⟨r0_0, p0⟩] S4096x128.size (by rfl) y

set_option maxHeartbeats 1000000 in
/-- The body on whole staging buffers: the input's kept, the output's left at `out0_1` of the input's. -/
theorem sound_kernel0 (c : Dev nD) (E : Set ℕ) (i : grid0.Coords) (arg1 : Memref sig .tc .vmem S4096x128 .f32) (harg1 : arg1.IsWhole)
    (arg2 : Memref sig .tc .vmem S4096x128 .bf16) (harg2 : arg2.IsWhole)
    (x0 : Vec F S4096x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quant_dequant_kernel i arg1 harg1 arg2 harg2) K := by
  simp only [cc0__quant_dequant_kernel_eq_skeleton]; unfold cc0__quant_dequant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pallas_call on core `c`: the arrays as the region finds them; after the body at
    point `t` the input's buffer at its block and the output's at `out0_1` of it; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Frame1Runs.lean ====
/-
  The second pallas_call (the tiled matrix product with the bias added at the last step), as one region of the
  program, stated at ANY contents `V` of the core's buffers when the region is entered: what the runs share.

  The grid is 8 x 2 x 8, the last axis the reduction over column blocks of 512. At the point with reduction
  coordinate `k` the body clears its accumulator (a scratch buffer the kernel keeps between points) when `k = 0`,
  adds the product of the staged 1024 x 512 block of the input and the staged 2048 x 512 block of the dequantised
  weight (contracted on their columns) to it, and when `k = 7` stores accumulator + bias row into the output block.
  Three control cases: first step (A), middle step (B), last step (C). The output window is idle (not stored, not
  written back) except in case C.
-/
import proofs.«145101_j19799799234864_1_alg».proof.Proof.Gen.KernelIdeal.Launch
import proofs.«145101_j19799799234864_1_alg».proof.Proof.Gen.KernelIdeal.Skeleton
import proofs.«145101_j19799799234864_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's current staging buffer holds the point's block of its array, fetched there or not (an input not
    fetched at a point has the block index it had at the point before). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end Blocks

/-! ## The body's two branch conditions, in closed form over the grid -/

/-- "This is the first reduction step": the body's first `scf.if`. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last reduction step": the body's second `scf.if`. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last reduction step the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last reduction step it is live. -/
theorem liveAt1_3 : ∀ t : Fin cfg1.N, cond1_1 (grid1.coords t) → cfg1.idle 3 (grid1.coords t) = false := by decide +kernel

/-! ## The memrefs the body is called with -/

abbrev VO1_3 : View sig .tc .vmem S1024x2048 .f32 := (Memref.whole cc1_stg3_0 : Memref sig .tc .vmem S1024x2048 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x2048 .f32 := Memref.whole cc1_scratch0
abbrev VS1 : View sig .tc .vmem S1024x2048 .f32 := scM1.view

/-- The region's class invariant, with the accumulator owned as a memref at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1 fullShare d)) ∗ (∃ r, prngReg c r)) := by
  unfold Pipeline.ΦA; rw [scopedRest1_eq]; simp only [scM1, owns_whole]; try rfl

/-! ## The body's runs, one per control case: a subtype the run finds -/

set_option maxHeartbeats 2000000 in
/-- FIRST STEP. The accumulator at anything; the input and weight blocks kept; the accumulator left with the
    pieces the run finds. The bias and output buffers are not touched. -/
noncomputable def kernelRun1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) :
    { LS : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg7 fullShare d)
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 2000000 in
/-- MIDDLE STEP. The accumulator at what the point before left (`xs`). -/
noncomputable def kernelRun1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (xs : Vec F S1024x2048 .f32) :
    { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg7 fullShare xs
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 2000000 in
/-- LAST STEP. The accumulator at what the point before left; the bias block kept; the output's buffer at anything,
    left with the pieces the run finds. -/
noncomputable def kernelRun1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S2048 .f32) (xs : Vec F S1024x2048 .f32) :
    Σ' (L3 : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.Frame1.lean ====
/-
  The second pallas_call as one region, at ANY entry contents `V`: what the accumulator and the output's staging
  buffer hold after each grid point, the proof data, and the body's obligation at every point.

  After point `n` the accumulator holds: at a first reduction step, what the first-step run leaves from the point's
  input and weight blocks; otherwise what the middle / last step run leaves from those blocks and from what the point
  before left. The output's staging buffer is named only at last steps (elsewhere the window is idle: a placeholder
  nothing consults). The invariant carried between points is the scoped rest with the accumulator at exactly these
  contents, and the generator register at some state; nothing is owed.
-/
import proofs.«145101_j19799799234864_1_alg».proof.Proof.Frame1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (y : S1024x2048.Idx) :
    ∃ pc ∈ (kernelRun1_A c i arg3 harg3 arg4 harg4 arg5 harg5 arg6 harg6 arg7 harg7 hc0 hc1 x0 x1).1, y ∈ pc.1.set :=
  View.cover_of_tiledL (kernelRun1_A c i arg3 harg3 arg4 harg4 arg5 harg5 arg6 harg6 arg7 harg7 hc0 hc1 x0 x1).1 S1024x2048.size (by sl_kernel_rfl) y

/-- What the first step leaves in the accumulator. -/
def sout1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) : Vec F S1024x2048 .f32 :=
  VS1.read (Elt F) (VS1.writes (Elt F) VS1.junk (kernelRun1_A c i arg3 harg3 arg4 harg4 arg5 harg5 arg6 harg6 arg7 harg7 hc0 hc1 x0 x1).1)

theorem scover1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (xs : Vec F S1024x2048 .f32) (y : S1024x2048.Idx) :
    ∃ pc ∈ (kernelRun1_B c i arg3 harg3 arg4 harg4 arg5 harg5 arg6 harg6 arg7 harg7 hc0 hc1 x0 x1 xs).1, y ∈ pc.1.set :=
  View.cover_of_tiledL (kernelRun1_B c i arg3 harg3 arg4 harg4 arg5 harg5 arg6 harg6 arg7 harg7 hc0 hc1 x0 x1 xs).1 S1024x2048.size (by sl_kernel_rfl) y

/-- What a middle step leaves in the accumulator. -/
def sout1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (xs : Vec F S1024x2048 .f32) : Vec F S1024x2048 .f32 :=
  VS1.read (Elt F) (VS1.writes (Elt F) VS1.junk (kernelRun1_B c i arg3 harg3 arg4 harg4 arg5 harg5 arg6 harg6 arg7 harg7 hc0 hc1 x0 x1 xs).1)

theorem cover1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S2048 .f32) (xs : Vec F S1024x2048 .f32) (y : S1024x2048.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S1024x2048.size (by sl_kernel_rfl) y

/-- What the last step leaves in the output's staging buffer. -/
def out1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S2048 .f32) (xs : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs).1)

theorem scover1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S2048 .f32) (xs : Vec F S1024x2048 .f32) (y : S1024x2048.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S1024x2048.size (by sl_kernel_rfl) y

/-- What the last step leaves in the accumulator. -/
def sout1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S2048 .f32) (xs : Vec F S1024x2048 .f32) : Vec F S1024x2048 .f32 :=
  VS1.read (Elt F) (VS1.writes (Elt F) VS1.junk (kernelRun1_C c i arg3 harg3 arg4 harg4 arg5 harg5 arg6 harg6 arg7 harg7 hc0 hc1 x0 x1 x2 xs).2.1)

/-- The output's staging buffer where the window is idle: a placeholder nothing consults. -/
def idleOut : Vec F S1024x2048 .f32 := VO1_3.read (Elt F) (VO1_3.writes (Elt F) VO1_3.junk [])

/-! ## What the output's buffer and the accumulator hold after each point -/

/-- After the body at position `n`: (the output's staging buffer, the accumulator). -/
def outsAt1 (c : Dev nD) : (n : ℕ) → n < cfg1.N → Vec F S1024x2048 .f32 × Vec F S1024x2048 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (idleOut, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idleOut, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first reduction step. -/
theorem outsAt1_A (c : Dev nD) (t : Fin cfg1.N) (h0 : t.val % 8 = 0) (h1 : ¬t.val % 8 = 7) :
    outsAt1 V c t.val t.isLt = (idleOut, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a middle step: over what the point before left. -/
theorem outsAt1_B (c : Dev nD) (t : Fin cfg1.N) (h0 : ¬t.val % 8 = 0) (h1 : ¬t.val % 8 = 7) :
    outsAt1 V c t.val t.isLt = (idleOut, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: over what the point before left. -/
theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried between points -/

/-- Before position `n`: before the first point the class's invariant (the accumulator at anything); afterwards the
    scoped rest with the accumulator at what the point before left, and the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 128 := lt_of_lt_of_eq t.isLt (show cfg1.N = 128 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS_castSucc V c t, PhiS_zero V c _ _ hz, PhiA1_eq]
      iintro ⟨⟨⟨Ha, Hb, Hc, Hd, HS⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)).2 Set.univ _)
      isplitl [H0]; · iexact H0
      isplitl [H1]; · iexact H1
      isplitl [HS]; · iexact HS
      iintro ⟨H0, H1, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (scover1_A c _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Ha, Hb, Hc, Hd, HS⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)).2 Set.univ _)
      isplitl [H0]; · iexact H0
      isplitl [H1]; · iexact H1
      isplitl [HS]; · iexists _; iexact HS
      iintro ⟨H0, H1, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (scover1_A c _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by intro e; rw [e] at h0; exact h0 (Nat.zero_mod _)
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS_castSucc V c t, PhiS_pos V c _ _ hz]
      iintro ⟨⟨⟨Ha, Hb, Hc, Hd, HS⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS_castSucc V c t, PhiS_pos V c _ _ hz]
      iintro ⟨⟨⟨Ha, Hb, Hc, Hd, HS⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS]; · iexact HS
      iintro ⟨H0, H1, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (scover1_B c _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  iintro ⟨⟨Ha, Hb, Hc, Hd, HS⟩, Hg⟩
  isplitl [Ha Hb Hc Hd HS]
  · isplitl [Ha]; · iexact Ha
    isplitl [Hb]; · iexact Hb
    isplitl [Hc]; · iexact Hc
    isplitl [Hd]; · iexact Hd
    iexists _; iexact HS
  iexact Hg

end Cert.KernelIdeal.Hand

end
-- ==== Proof.Run.lean ====
/-
  The whole program: two kernel regions in a row, nothing between them on the host.

  Between the items a core's unscoped buffers are named: at launch the memory; after the first region the same with
  the dequantised weight's buffer at what that region's write-backs leave; after the second the same with the
  result's buffer at what its write-backs leave. Each region is entered from "every unscoped buffer at the
  boundary's contents, the generator register at some state, nothing owed" and left at the next boundary's; the
  launch deals the first such state and the last is read against the final memory. Every weakly fair execution
  terminates, and every final memory holds each unscoped buffer at the last boundary's contents: the arguments as
  launched (the frame), and the result at the second region's folded write-backs (what the value proof reads).
-/
import proofs.«145101_j19799799234864_1_alg».proof.Proof.Frame0
import proofs.«145101_j19799799234864_1_alg».proof.Proof.Frame1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => m (c, b)
/-- The same read at the TensorCore's references. -/
abbrev VA : (c : Dev nD) → (b : Ref sig .tc) → Buf (Elt F) ((c : Thread nD τ).loc b) := fun c b => W0 m c b
/-- At the first region's exit (the second's entry): its arrays at what the pipeline leaves, every other buffer as entered. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VB : (c : Dev nD) → (b : Ref sig .tc) → Buf (Elt F) ((c : Thread nD τ).loc b) := fun c b => W1 m c b
theorem hF0 (c : Dev nD) (w : Fin cfg0.W) : (dat0 (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)

/-- At the second region's exit. -/
def W2 (c : Dev nD) : Valuation τ sig (Elt F) :=
  Pipeline.withArrays spec1 c (W1 m c) fun w => (dat1 (VB m) c).arrAt w cfg1.N
theorem W2_arr (c : Dev nD) (w : Fin cfg1.W) :
    W2 m c (Proc.devRef .tc (Pipeline.arrRef spec1 w)) = (dat1 (VB m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev VC : (c : Dev nD) → (b : Ref sig .tc) → Buf (Elt F) ((c : Thread nD τ).loc b) := fun c b => W2 m c b
theorem hF1 (c : Dev nD) (w : Fin cfg1.W) : (dat1 (VB m) c).arrAt w cfg1.N = VC m c (Pipeline.arrRef spec1 w) :=
  (W2_arr m c w).symm
theorem hrest1 (c : Dev nD) : ∀ b, b ∉ Finset.univ.image (Pipeline.arrRef spec1) → VC m c b = VB m c b :=
  fun b hb => W2_of_ne m c b fun w e => hb (Finset.mem_image.mpr ⟨w, Finset.mem_univ _, e⟩)

/-! ## What the second region is entered with -/

/-- The input and the bias reach the second region as launched; the dequantised weight is what the first region left. -/
theorem VB_main_arg0 (c : Dev nD) : VB m c main_arg0 = m ((c : Thread nD τ).loc main_arg0) :=
  W1_of_ne m c main_arg0 (by decide)
theorem VB_main_arg2 (c : Dev nD) : VB m c main_arg2 = m ((c : Thread nD τ).loc main_arg2) :=
  W1_of_ne m c main_arg2 (by decide)
theorem VB_main_v0 (c : Dev nD) : VB m c main_v0 = (dat0 (VA m) c).arrAt 1 cfg0.N :=
  W1_arr m c 1
theorem VA_main_arg1 (c : Dev nD) : VA m c main_arg1 = m ((c : Thread nD τ).loc main_arg1) := rfl

/-! ## The end: the arguments as launched, the result as the second region left it -/

theorem W2_main_arg0 (c : Dev nD) : W2 m c (Proc.devRef .tc main_arg0) = m ((c : Thread nD τ).loc main_arg0) :=
  (W2_arr m c 0).trans (((dat1 (VB m) c).arrAt_in 0 rfl _).trans ((A_eq1 (VB m) c 0).trans (VB_main_arg0 m c)))
theorem W2_main_arg1 (c : Dev nD) : W2 m c (Proc.devRef .tc main_arg1) = m ((c : Thread nD τ).loc main_arg1) :=
  (W2_of_ne m c main_arg1 (by decide)).trans
    ((W1_arr m c 0).trans (((dat0 (VA m) c).arrAt_in 0 rfl _).trans (A_eq0 (VA m) c 0)))
theorem W2_main_arg2 (c : Dev nD) : W2 m c (Proc.devRef .tc main_arg2) = m ((c : Thread nD τ).loc main_arg2) :=
  (W2_arr m c 2).trans (((dat1 (VB m) c).arrAt_in 2 rfl _).trans ((A_eq1 (VB m) c 2).trans (VB_main_arg2 m c)))
theorem W2_main_v1 (c : Dev nD) : W2 m c (Proc.devRef .tc main_v1) = (dat1 (VB m) c).arrAt 3 cfg1.N :=
  W2_arr m c 3

/-! ## The proof data family and the thread state -/

abbrev adm : (p : Fin 2) → (pcfgs (F := F) p).Adm := fun p => (cfgs p).toPCfg_adm
/-- Each pipeline's proof data at its region's entry contents: a literal match. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The first region: entered from every unscoped buffer at launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from `W1`, left at `W2`. Its invariant carries the accumulator: before the first
    point it is the class's, after the last it gives the class's back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ (BI.emp : sProp 𝕄)
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (VB m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- THE FRAME: every weakly fair execution terminates, nothing faulting, the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

/-- THE RUN WITH THE RESULT NAMED: the result's buffer ends at the second region's folded write-backs, the
    arguments as launched. -/
theorem run_value : θ_run defs (onTc (τ := τ) (main (F := F))) ⟨m, fun _ => 0, ρ⟩ (fun r => ∀ c : Dev nD,
      r.2.mem ((c.tc : Thread nD τ).loc main_v1) = (dat1 (VB m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

end Cert.KernelIdeal.Hand

end
-- ==== Proof.Spec.lean ====
/-
  What the layer computes, on the extended reals.

  A weight matrix `W` (4096 x 4096) is cut into groups of 128 consecutive entries of a row. A group's scale is its
  largest absolute value (the fold of `max` from minus infinity) divided by 7, or 1 where that quotient is not
  positive. An entry is quantised to `min 7 (max (-8) (round-half-even (w / scale)))` and dequantised by multiplying
  with the scale again. The layer's entry (r, j) is the sum over k of x(r, k) times the dequantised w(j, k), plus the
  bias b(j).
-/
import Idealize.ShloMosaic.Lib.ValueIdx
import Idealize.ShloMosaic.PureOps.Ideal
import Idealize.ShloMosaic.PureOps.Ideal.Laws

noncomputable section

namespace Cert.Spec

open Idealize.ShloMosaic

/-- The largest absolute value of a group: the fold of `max` from minus infinity over the 128 entries' absolute values. -/
def gmax (g : Fin 128 → EReal) : EReal :=
  (Finset.univ : Finset (Fin 128)).fold max (FloatOps.ofBits (F := Ideal) .f32 0xFF800000#32)
    (fun l => FloatOps.absf (F := Ideal) (φ := .f32) (g l))

/-- A group's scale: max-abs over 7, or 1 where that is not positive. -/
def gscale (g : Fin 128 → EReal) : EReal :=
  Scalar.select
    (FloatOps.cmpf (F := Ideal) (φ := .f32) .ogt
      (FloatOps.divf (F := Ideal) (φ := .f32) (gmax g) (FloatOps.ofBits (F := Ideal) .f32 0x40E00000#32))
      (FloatOps.ofBits (F := Ideal) .f32 0x00000000#32))
    (FloatOps.divf (F := Ideal) (φ := .f32) (gmax g) (FloatOps.ofBits (F := Ideal) .f32 0x40E00000#32))
    (FloatOps.ofBits (F := Ideal) .f32 0x3F800000#32)

/-- One entry quantised against a scale and dequantised again. -/
def qd (s x : EReal) : EReal :=
  FloatOps.mulf (F := Ideal) (φ := .f32)
    (FloatOps.minimumf (F := Ideal) (φ := .f32) (FloatOps.sitofp (F := Ideal) .f32 (7#32))
      (FloatOps.maximumf (F := Ideal) (φ := .f32) (FloatOps.sitofp (F := Ideal) .f32 (4294967288#32))
        (FloatOps.roundeven (F := Ideal) (φ := .f32) (FloatOps.divf (F := Ideal) (φ := .f32) x s))))
    s

/-- The group of entry (j, k): the 128 entries of row `j` from column `(k / 128) * 128` on. -/
def grp (W : Fin 4096 → Fin 4096 → EReal) (j k : Fin 4096) : Fin 128 → EReal :=
  fun l => W j ⟨k.val / 128 * 128 + l.val, by have := k.isLt; have := l.isLt; omega⟩

/-- The dequantised weight. -/
def wdq (W : Fin 4096 → Fin 4096 → EReal) (j k : Fin 4096) : EReal :=
  qd (gscale (grp W j k)) (W j k)

/-- The layer's entry (r, j). -/
def layer (X : Fin 8192 → Fin 4096 → EReal) (Wq : Fin 4096 → Fin 4096 → EReal) (B : Fin 4096 → EReal)
    (r : Fin 8192) (j : Fin 4096) : EReal :=
  (∑ k : Fin 4096, X r k * Wq j k) + B j

end Cert.Spec

end
-- ==== Proof.ValK0.lean ====
/-
  The first region's result, entry by entry: the dequantised weight.

  The region's body takes a 4096 x 128 block of the weight, a row of which is one group of 128 entries. It takes each
  row's largest absolute value (the fold of `max` from minus infinity over the lanes), divides it by 7, replaces the
  quotient by 1 where it is not positive, and with that scale quantises and dequantises every entry of the row. Read at
  one index this is the specification's `qd` of `gscale` of the row. Point `t` of the grid stages columns
  `128 t … 128 t + 127` of the weight and writes the same columns of the result back; so the group of entry (j, k) is
  the row of the block of point `k / 128`, every column lies in exactly that point's block, and the result array ends
  holding the dequantised weight at every index.
-/
import proofs.«145101_j19799799234864_1_alg».proof.Proof.Frame0
import proofs.«145101_j19799799234864_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Hand

/-! ## The body's value at an index -/

/-- Inserting the lane coordinate into a row's index gives the entry's index. -/
theorem lift_row (p : Fin 4096) (l : Fin 128) :
    reduces_S4096x128_S4096.lift (a := (1 : Fin S4096x128.rank)) (ix1 p) l = ix2 p l := by
  funext a; apply Fin.ext
  match a with
  | ⟨0, _⟩ => rfl
  | ⟨1, _⟩ => rfl

/-- The lane maximum of a row's absolute values is the group's largest absolute value. -/
theorem rowmax_apply (x0 : FVec Ideal S4096x128 .f32) (p : Fin 4096) :
    multiReduction (F := Ideal) .maximumf [1] S4096 (absf x0) 0xFF800000#32 reduces_S4096x128_S4096 (.inl rfl) rfl (ix1 p)
      = Cert.Spec.gmax (fun l => x0 (ix2 p l)) := by
  refine (Ideal.multiReduction_maximumf_single (absf x0) 0xFF800000#32 reduces_S4096x128_S4096 (.inl rfl) rfl (ix1 p)).trans ?_
  unfold Cert.Spec.gmax
  have e : (absf x0 ∘ reduces_S4096x128_S4096.lift (a := (1 : Fin S4096x128.rank)) (ix1 p))
      = (fun l : Fin 128 => FloatOps.absf (F := Ideal) (φ := .f32) (x0 (ix2 p l))) :=
    funext fun l => congrArg (fun i => FloatOps.absf (F := Ideal) (φ := .f32) (x0 i)) (lift_row p l)
  rw [e]
  rfl

/-- A vector cast to a column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Rounding to the nearest even integer acts entry by entry. -/
theorem roundeven_apply {s : Shape} {φ : FTy} (a : FVec Ideal s φ) (i : s.Idx) :
    roundeven a i = FloatOps.roundeven (a i) := rfl

/-- The body's value at (p, q): the entry quantised against its row's scale and dequantised. -/
theorem pay_apply (x0 : FVec Ideal S4096x128 .f32) (p : Fin 4096) (q : Fin 128) :
    k0_pay1 (F := Ideal) x0 (ix2 p q) = Cert.Spec.qd (Cert.Spec.gscale (fun l => x0 (ix2 p l))) (x0 (ix2 p q)) := by
  unfold k0_pay1
  dsimp only
  simp only [truncf_apply, mulf_apply, minimumf_apply, maximumf_apply, broadcast_apply, divf_apply, roundeven_apply,
    broadcastTo_a1_ab_apply, select_apply, cmpf_apply, shapeCast_a_a1_apply]
  rw [rowmax_apply]
  rfl

/-! ## A block of columns -/

/-- The body's value on a block whose entries are the weight's columns from `t * 128` on: the dequantised entry. The
    group of column `t * 128 + q` starts at column `t * 128`, so it is the block's row. -/
theorem point_eq (W : Fin 4096 → Fin 4096 → EReal) (x0 : FVec Ideal S4096x128 .f32) (t : Nat) (ht : t < 32)
    (hx : ∀ (p : Fin 4096) (l : Fin 128), x0 (ix2 p l) = W p ⟨t * 128 + l.val, by have := l.isLt; omega⟩)
    (p : Fin 4096) (q : Fin 128) :
    k0_pay1 (F := Ideal) x0 (ix2 p q) = Cert.Spec.wdq W p ⟨t * 128 + q.val, by have := q.isLt; omega⟩ := by
  rw [pay_apply]
  unfold Cert.Spec.wdq
  rw [hx p q]
  congr 2
  funext l
  rw [hx p l]
  unfold Cert.Spec.grp
  exact congrArg (W p) (Fin.ext (by
    show t * 128 + l.val = (t * 128 + q.val) / 128 * 128 + l.val
    have := q.isLt; omega))

/-- The same at any index of the block. -/
theorem block_eq (W : Fin 4096 → Fin 4096 → EReal) (x0 : FVec Ideal S4096x128 .f32) (t : Nat) (ht : t < 32)
    (hx : ∀ (p : Fin 4096) (l : Fin 128), x0 (ix2 p l) = W p ⟨t * 128 + l.val, by have := l.isLt; omega⟩)
    (y : S4096x128.Idx) :
    k0_pay1 (F := Ideal) x0 y
      = Cert.Spec.wdq W ⟨(y 0).val, idx2_lt0 y⟩ ⟨t * 128 + (y 1).val, by have := idx2_lt1 y; omega⟩ := by
  obtain ⟨p, q, rfl⟩ : ∃ (p : Fin 4096) (q : Fin 128), y = ix2 p q := ⟨y 0, y 1, eq_ix2 y⟩
  exact point_eq W x0 t ht hx p q

/-- The dequantised entry depends on the coordinates' values only. -/
theorem wdq_congr (W : Fin 4096 → Fin 4096 → EReal) (j k j' k' : Nat) (hj : j < 4096) (hk : k < 4096)
    (hj' : j' < 4096) (hk' : k' < 4096) (ej : j = j') (ek : k = k') :
    Cert.Spec.wdq W ⟨j, hj⟩ ⟨k, hk⟩ = Cert.Spec.wdq W ⟨j', hj'⟩ ⟨k', hk'⟩ := by
  subst ej ek; rfl

/-- The zero offsets of a whole block, as a constant function. -/
theorem zero_offsets : (![0, 0] : Fin 2 → Nat) = fun _ => 0 := funext fun a => by fin_cases a <;> rfl

/-- Both windows' block index at point `t` is (0, t). -/
theorem block_index : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- An index of the array is in point `t`'s block iff each coordinate is in the block's range on its axis. -/
theorem mem_column_block (t : Fin cfg0.N) (i : S4096x4096.Idx) :
    i ∈ ((cfg0.win 1).blk t).view.set ↔ ∀ a : Fin 2, win0_1.index t a * S4096x128.size a ≤ (i a).val
      ∧ (i a).val < win0_1.index t a * S4096x128.size a + S4096x128.size a := by
  show i ∈ ((View.whole main_v0).slice (win0_1.rect t)).set ↔ _
  rw [View.set_slice_whole, Rect.mem_set_unit]
  exact Iff.rfl

/-- Column `k` lies in the block of point `k / 128`, which is written back. -/
theorem column_covered (i : S4096x4096.Idx) :
    ∃ t : Fin cfg0.N, (cfg0.win 1).flush t = true ∧ i ∈ ((cfg0.win 1).blk t).view.set := by
  have hi0 : (i 0).val < 4096 := idx2_lt0 i
  have hi1 : (i 1).val < 4096 := idx2_lt1 i
  obtain ⟨t, ht⟩ : ∃ t : Fin cfg0.N, t.val = (i 1).val / 128 :=
    ⟨⟨(i 1).val / 128, by rw [show cfg0.N = 32 from N_0]; omega⟩, rfl⟩
  obtain ⟨e0, e1, e2, e3⟩ := block_index t
  refine ⟨t, flush0_1 t, ?_⟩
  rw [mem_column_block]
  intro a
  match a with
  | ⟨0, _⟩ =>
    show win0_1.index t (0 : Fin 2) * 4096 ≤ (i 0).val ∧ (i 0).val < win0_1.index t (0 : Fin 2) * 4096 + 4096
    rw [e2]; omega
  | ⟨1, _⟩ =>
    show win0_1.index t (1 : Fin 2) * 128 ≤ (i 1).val ∧ (i 1).val < win0_1.index t (1 : Fin 2) * 128 + 128
    rw [e3, ht]; omega

variable (V : (c : Dev nD) → (b : Ref sig .tc) → Buf (Elt Ideal) ((c : Thread nD τ).loc b))

/-- The weight as the first region finds it, by coordinates. -/
abbrev Wf (c : Dev nD) : Fin 4096 → Fin 4096 → EReal := fun a b => (V c main_arg1 : S4096x4096.Idx → EReal) (ix2 a b)

/-! ## From the blocks to the array -/

/-- The dequantised weight as one function of the array's index. -/
abbrev dequantised (c : Dev nD) : S4096x4096.Idx → EReal :=
  fun i => Cert.Spec.wdq (Wf V c) ⟨(i 0).val, idx2_lt0 i⟩ ⟨(i 1).val, idx2_lt1 i⟩

/-- What point `t` writes back is its block of columns of the dequantised weight: the input block at (p, l) is the
    weight at (p, 128 t + l), and the output block's (p, q) sits at (p, 128 t + q) of the array. -/
theorem written_back_eq (c : Dev nD) (t : Fin cfg0.N) :
    (dat0 (F := Ideal) V c).flushed 1 t = ((cfg0.win 1).blk t).view.read (Elt Ideal) (dequantised V c) := by
  show (cfg0.win 1).cut (grid0.coords t) ((dat0 V c).after 1 t) = _
  rw [after0_1]
  unfold out0_1
  rw [View.canon_unit_zero zero_offsets]
  simp only [View.ld_unit_zero (S := S4096x128) zero_offsets]
  obtain ⟨e0, e1, e2, e3⟩ := block_index t
  have ht : t.val < 32 := Nat.lt_of_lt_of_eq t.isLt N_0
  funext y
  refine (block_eq (Wf V c) (iblk0 V c 0 t) t.val ht ?_ _).trans ?_
  · intro p l
    show (V c main_arg1 : S4096x4096.Idx → EReal) (((cfg0.win 0).blk t).view.emb (ix2 p l))
      = (V c main_arg1 : S4096x4096.Idx → EReal) (ix2 p ⟨t.val * 128 + l.val, _⟩)
    refine congrArg _ (funext fun a => Fin.ext ?_)
    match a with
    | ⟨0, _⟩ => show win0_0.index t (0 : Fin 2) * 4096 + 1 * p.val = p.val; rw [e0]; omega
    | ⟨1, _⟩ => show win0_0.index t (1 : Fin 2) * 128 + 1 * l.val = t.val * 128 + l.val; rw [e1]; omega
  · show Cert.Spec.wdq (Wf V c) _ _ = dequantised V c (((cfg0.win 1).blk t).view.emb y)
    refine wdq_congr (Wf V c) _ _ _ _ _ _ _ _ ?_ ?_
    · show (y 0).val = win0_1.index t (0 : Fin 2) * 4096 + 1 * (y 0).val; rw [e2]; omega
    · show t.val * 128 + (y 1).val = win0_1.index t (1 : Fin 2) * 128 + 1 * (y 1).val; rw [e3]; omega

/-- After the first region's write-backs the dequantised weight's buffer holds, at (j, k), the entry (j, k) of the
    weight quantised against its group's scale and dequantised. -/
theorem final0_apply (c : Dev nD) (j k : Fin 4096) :
    ((dat0 (F := Ideal) V c).arrAt 1 cfg0.N : S4096x4096.Idx → EReal) (ix2 j k) = Cert.Spec.wdq (Wf V c) j k :=
  congrFun ((dat0 (F := Ideal) V c).arrAt_eq_of_cover 1 (dequantised V c) (fun t _ => written_back_eq V c t)
    column_covered) (ix2 j k)

end Cert.KernelIdeal.Val0

end
-- ==== Proof.ValK1Pieces.lean ====
/-
  What each control case of the second region leaves, as the body's arithmetic: every store is of a whole block, so
  a buffer ends at the payload of its last store, and a load after a store reads that store's payload.
-/
import proofs.«145101_j19799799234864_1_alg».proof.Proof.Frame1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a; rfl

/-- The first step leaves in the accumulator the update of a cleared accumulator by the two blocks. -/
theorem sout1_A_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) :
    sout1_A c i arg3 harg3 arg4 harg4 arg5 harg5 arg6 harg6 arg7 harg7 hc0 hc1 x0 x1 = k1_pay2 x0 x1 (k1_pay1 (F := F)) := by
  unfold sout1_A
  rw [View.read_writes_eq_canon _ _ _ (scover1_A c i arg3 harg3 arg4 harg4 arg5 harg5 arg6 harg6 arg7 harg7 hc0 hc1 x0 x1)]
  unfold kernelRun1_A
  dsimp only
  sl_unfold_words
  simp only [View.canon_cons_unit_zero (S := S1024x2048) hz2, View.canon_unit_zero (S := S1024x2048) hz2,
    View.readCov_unit_zero (S := S1024x2048) _ hz2, View.readAt_eq_ld, harg3.read_unread, harg4.read_unread, harg5.read_unread,
    harg7.read_unread, View.ld_unit_zero (S := S1024x512) hz2, View.ld_unit_zero (S := S2048x512) hz2,
    View.ld_unit_zero (S := S1024x2048) hz2, View.ld_unit_zero (S := S2048) hz1]

/-- A middle step leaves the update of what the point before left. -/
theorem sout1_B_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (xs : Vec F S1024x2048 .f32) :
    sout1_B c i arg3 harg3 arg4 harg4 arg5 harg5 arg6 harg6 arg7 harg7 hc0 hc1 x0 x1 xs = k1_pay2 x0 x1 xs := by
  unfold sout1_B
  rw [View.read_writes_eq_canon _ _ _ (scover1_B c i arg3 harg3 arg4 harg4 arg5 harg5 arg6 harg6 arg7 harg7 hc0 hc1 x0 x1 xs)]
  unfold kernelRun1_B
  dsimp only
  sl_unfold_words
  simp only [View.canon_cons_unit_zero (S := S1024x2048) hz2, View.canon_unit_zero (S := S1024x2048) hz2,
    View.readCov_unit_zero (S := S1024x2048) _ hz2, View.readAt_eq_ld, harg3.read_unread, harg4.read_unread, harg5.read_unread,
    harg7.read_unread, View.ld_unit_zero (S := S1024x512) hz2, View.ld_unit_zero (S := S2048x512) hz2,
    View.ld_unit_zero (S := S1024x2048) hz2, View.ld_unit_zero (S := S2048) hz1]

/-- The last step leaves the same update in the accumulator, -/
theorem sout1_C_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S2048 .f32) (xs : Vec F S1024x2048 .f32) :
    sout1_C c i arg3 harg3 arg4 harg4 arg5 harg5 arg6 harg6 arg7 harg7 hc0 hc1 x0 x1 x2 xs = k1_pay2 x0 x1 xs := by
  unfold sout1_C
  rw [View.read_writes_eq_canon _ _ _ (scover1_C c i arg3 harg3 arg4 harg4 arg5 harg5 arg6 harg6 arg7 harg7 hc0 hc1 x0 x1 x2 xs)]
  unfold kernelRun1_C
  dsimp only
  sl_unfold_words
  simp only [View.canon_cons_unit_zero (S := S1024x2048) hz2, View.canon_unit_zero (S := S1024x2048) hz2,
    View.readCov_unit_zero (S := S1024x2048) _ hz2, View.readAt_eq_ld, harg3.read_unread, harg4.read_unread, harg5.read_unread,
    harg7.read_unread, View.ld_unit_zero (S := S1024x512) hz2, View.ld_unit_zero (S := S2048x512) hz2,
    View.ld_unit_zero (S := S1024x2048) hz2, View.ld_unit_zero (S := S2048) hz1]

/-- and the updated accumulator plus the bias row in the output's buffer. -/
theorem out1_C_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S2048 .f32) (xs : Vec F S1024x2048 .f32) :
    out1_C c i arg3 harg3 arg4 harg4 arg5 harg5 arg6 harg6 arg7 harg7 hc0 hc1 x0 x1 x2 xs = k1_pay3 x2 (k1_pay2 x0 x1 xs) := by
  unfold out1_C
  rw [View.read_writes_eq_canon _ _ _ (cover1_C c i arg3 harg3 arg4 harg4 arg5 harg5 arg6 harg6 arg7 harg7 hc0 hc1 x0 x1 x2 xs)]
  unfold kernelRun1_C
  dsimp only
  sl_unfold_words
  simp only [View.canon_cons_unit_zero (S := S1024x2048) hz2, View.canon_unit_zero (S := S1024x2048) hz2,
    View.readCov_unit_zero (S := S1024x2048) _ hz2, View.readAt_eq_ld, harg3.read_unread, harg4.read_unread, harg5.read_unread,
    harg7.read_unread, View.ld_unit_zero (S := S1024x512) hz2, View.ld_unit_zero (S := S2048x512) hz2,
    View.ld_unit_zero (S := S1024x2048) hz2, View.ld_unit_zero (S := S2048) hz1]

end Cert.KernelIdeal.Hand

end
-- ==== Proof.ValK1Pay.lean ====
/-
  The second kernel's arithmetic, entry by entry, on the extended reals.

  The reset stores zero. The update stores, at (p, q), the accumulator's entry plus the sum over the 512 staged
  columns of the input block's (p, kk) times the weight block's (q, kk): a matrix product contracted on both operands'
  columns, accumulated from zero, the narrowing of the input to bf16 the identity. The last step stores the
  accumulator's entry plus the bias block's q.
-/
import proofs.«145101_j19799799234864_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val1

open Idealize.ShloMosaic Idealize.ShloMosaic.ValueIdx
open Cert.KernelIdeal Cert.KernelIdeal.Gen

/-- The reset's payload is zero everywhere. -/
theorem pay1_apply (y : S1024x2048.Idx) : k1_pay1 (F := Ideal) y = 0 := by
  unfold k1_pay1
  simp only [shapeCast_self]
  show Ideal.ofBits .f32 0x00000000#32 = 0
  exact Ideal.ofBits_zero_f32

/-! ### The product's index maps: the left operand at (row of the result, contraction position), the right at
    (column of the result, contraction position) -/

theorem lhs_mm_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem lhs_mm_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
theorem rhs_mm_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem rhs_mm_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The product of the two blocks into a zero accumulator, at (p, q): the sum over the staged columns. -/
theorem mm_apply (x : FVec Ideal S1024x512 .bf16) (w : FVec Ideal S2048x512 .bf16) (p : Fin 1024) (q : Fin 2048) :
    FloatOps.matmul dot_S1024x512_S2048x512_S1024x2048_1_1_0_0_n_n none x w (constant S1024x2048 .f32 0x00000000#32) (ix2 p q)
      = ∑ kk : Fin 512, x (ix2 p kk) * w (ix2 q kk) := by
  rw [Ideal.matmul_constant_zero_apply, ← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 p q) ((contrEquiv1 dot_S1024x512_S2048x512_S1024x2048_1_1_0_0_n_n 512 rfl rfl).symm k) = ix2 p k := funext fun a => Fin.ext (by
    match a with
    | ⟨0, _⟩ => exact lhs_mm_0 _ _
    | ⟨1, _⟩ => exact (lhs_mm_1 _ _).trans hk)
  have er : dot_S1024x512_S2048x512_S1024x2048_1_1_0_0_n_n.rhsIdx (ix2 p q) ((contrEquiv1 dot_S1024x512_S2048x512_S1024x2048_1_1_0_0_n_n 512 rfl rfl).symm k) = ix2 q k := funext fun a => Fin.ext (by
    match a with
    | ⟨0, _⟩ => exact rhs_mm_0 _ _
    | ⟨1, _⟩ => exact (rhs_mm_1 _ _).trans hk)
  rw [el, er]

/-- The update's payload at (p, q). -/
theorem pay2_apply (x : Vec Ideal S1024x512 .f32) (w : Vec Ideal S2048x512 .bf16) (s : Vec Ideal S1024x2048 .f32)
    (p : Fin 1024) (q : Fin 2048) :
    k1_pay2 x w s (ix2 p q) = s (ix2 p q) + ∑ kk : Fin 512, x (ix2 p kk) * w (ix2 q kk) := by
  unfold k1_pay2
  simp only [shapeCast_self]
  show s (ix2 p q) + FloatOps.matmul (F := Ideal) dot_S1024x512_S2048x512_S1024x2048_1_1_0_0_n_n none
      (truncf (F := Ideal) .bf16 x bitsLt_bf16_f32) w (constant (F := Ideal) S1024x2048 .f32 0x00000000#32) (ix2 p q) = _
  rw [mm_apply]
  rfl

/-- The last step's payload at (p, q). -/
theorem pay3_apply (b : Vec Ideal S2048 .f32) (s : Vec Ideal S1024x2048 .f32) (p : Fin 1024) (q : Fin 2048) :
    k1_pay3 b s (ix2 p q) = s (ix2 p q) + b (ix1 q) := by
  unfold k1_pay3
  show s (ix2 p q) + broadcastTo S1024x2048 (shapeCast S1x2048 b shapeCasts_S2048_S1x2048) broadcasts_S1x2048_S1024x2048 (ix2 p q) = s (ix2 p q) + b (ix1 q)
  rw [broadcastTo_1b_ab_apply, shapeCast_a_1a_apply]

end Cert.KernelIdeal.Val1

end
-- ==== Proof.ValK1.lean ====
/-
  The second region's result, entry by entry: the layer.

  Point `n` of the 8 x 2 x 8 grid has row block `n / 16`, column block `n / 8 % 2` and reduction step `n % 8`; its
  input block is rows `n / 16 * 1024 ..` and columns `n % 8 * 512 ..` of the input, its weight block rows
  `n / 8 % 2 * 2048 ..` and the same columns of the second operand. After point `n` the accumulator holds, at (p, q),
  the sum over the first `(n % 8 + 1) * 512` columns of input(row, col) * weight(row', col): zero plus the first
  block's product at a first step, the point before plus this block's product otherwise (a sum over a range splits at
  a multiple of 512). At a last step (`n % 8 = 7`) that is the whole sum over the 4096 columns; the output block holds
  it plus the bias, and these blocks, one per (row block, column block), tile the result.
-/
import proofs.«145101_j19799799234864_1_alg».proof.Proof.ValK1Pieces
import proofs.«145101_j19799799234864_1_alg».proof.Proof.ValK1Pay
import proofs.«145101_j19799799234864_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## The grid's index maps, decided once over the 128 points -/

theorem idx1 : ∀ t : Fin cfg1.N, win1_0.index t 0 = t.val / 16 ∧ win1_0.index t 1 = t.val % 8 ∧ win1_1.index t 0 = t.val / 8 % 2 ∧ win1_1.index t 1 = t.val % 8
    ∧ win1_2.index t 0 = t.val / 8 % 2 ∧ win1_3.index t 0 = t.val / 16 ∧ win1_3.index t 1 = t.val / 8 % 2
    ∧ win1_3.xsize (grid1.coords t) 0 = 1024 ∧ win1_3.xsize (grid1.coords t) 1 = 2048 :=
  (by decide +kernel : ∀ t : Fin grid1.N, win1_0.index t 0 = t.val / 16 ∧ win1_0.index t 1 = t.val % 8 ∧ win1_1.index t 0 = t.val / 8 % 2 ∧ win1_1.index t 1 = t.val % 8
    ∧ win1_2.index t 0 = t.val / 8 % 2 ∧ win1_3.index t 0 = t.val / 16 ∧ win1_3.index t 1 = t.val / 8 % 2
    ∧ win1_3.xsize (grid1.coords t) 0 = 1024 ∧ win1_3.xsize (grid1.coords t) 1 = 2048)

theorem lt128 (t : Fin cfg1.N) : t.val < 128 := lt_of_lt_of_eq t.isLt (show cfg1.N = 128 from N_1)

/-! ## The arrays and the blocks at their literal types -/

abbrev Xa (c : Dev nD) : Vec Ideal S8192x4096 .f32 := V c main_arg0
abbrev Wa (c : Dev nD) : Vec Ideal S4096x4096 .bf16 := V c main_v0
abbrev Ba (c : Dev nD) : Vec Ideal S4096 .f32 := V c main_arg2
abbrev xblk (c : Dev nD) (t : Fin cfg1.N) : Vec Ideal S1024x512 .f32 := iblk1 V c 0 t
abbrev wblk (c : Dev nD) (t : Fin cfg1.N) : Vec Ideal S2048x512 .bf16 := iblk1 V c 1 t
abbrev bblk (c : Dev nD) (t : Fin cfg1.N) : Vec Ideal S2048 .f32 := iblk1 V c 2 t

/-- The arrays by natural-number coordinates (zero outside the array: never read there). -/
def Xn (c : Dev nD) (a b : ℕ) : EReal := if h : a < 8192 ∧ b < 4096 then Xa V c (ix2 ⟨a, h.1⟩ ⟨b, h.2⟩) else 0
def Wn (c : Dev nD) (a b : ℕ) : EReal := if h : a < 4096 ∧ b < 4096 then Wa V c (ix2 ⟨a, h.1⟩ ⟨b, h.2⟩) else 0
def Bn (c : Dev nD) (a : ℕ) : EReal := if h : a < 4096 then Ba V c (ix1 ⟨a, h⟩) else 0

/-! ## The windows' blocks read by coordinates -/

theorem xblk_apply (c : Dev nD) (t : Fin cfg1.N) (p : Fin 1024) (kk : Fin 512) :
    xblk V c t (ix2 p kk) = Xn V c (t.val / 16 * 1024 + p.val) (t.val % 8 * 512 + kk.val) := by
  have hi := idx1 t
  have ht := lt128 t
  unfold Xn
  rw [dif_pos ⟨by have := p.isLt; omega, by have := kk.isLt; omega⟩]
  unfold xblk iblk1
  rw [View.read_apply]
  show V c main_arg0 _ = V c main_arg0 _
  congr 1
  funext a
  apply Fin.ext
  match a with
  | ⟨0, _⟩ => show win1_0.index t 0 * 1024 + 1 * p.val = t.val / 16 * 1024 + p.val; rw [hi.1]; omega
  | ⟨1, _⟩ => show win1_0.index t 1 * 512 + 1 * kk.val = t.val % 8 * 512 + kk.val; rw [hi.2.1]; omega

theorem wblk_apply (c : Dev nD) (t : Fin cfg1.N) (q : Fin 2048) (kk : Fin 512) :
    wblk V c t (ix2 q kk) = Wn V c (t.val / 8 % 2 * 2048 + q.val) (t.val % 8 * 512 + kk.val) := by
  have hi := idx1 t
  have ht := lt128 t
  unfold Wn
  rw [dif_pos ⟨by have := q.isLt; omega, by have := kk.isLt; omega⟩]
  unfold wblk iblk1
  rw [View.read_apply]
  show V c main_v0 _ = V c main_v0 _
  congr 1
  funext a
  apply Fin.ext
  match a with
  | ⟨0, _⟩ => show win1_1.index t 0 * 2048 + 1 * q.val = t.val / 8 % 2 * 2048 + q.val; rw [hi.2.2.1]; omega
  | ⟨1, _⟩ => show win1_1.index t 1 * 512 + 1 * kk.val = t.val % 8 * 512 + kk.val; rw [hi.2.2.2.1]; omega

theorem bblk_apply (c : Dev nD) (t : Fin cfg1.N) (q : Fin 2048) :
    bblk V c t (ix1 q) = Bn V c (t.val / 8 % 2 * 2048 + q.val) := by
  have hi := idx1 t
  have ht := lt128 t
  unfold Bn
  rw [dif_pos (by have := q.isLt; omega)]
  unfold bblk iblk1
  rw [View.read_apply]
  show V c main_arg2 _ = V c main_arg2 _
  congr 1
  funext a
  apply Fin.ext
  match a with
  | ⟨0, _⟩ => show win1_2.index t 0 * 2048 + 1 * q.val = t.val / 8 % 2 * 2048 + q.val; rw [hi.2.2.2.2.1]; omega

/-! ## The accumulator after each point -/

/-- One block's product, as the sum over the next 512 columns. -/
theorem block_sum (c : Dev nD) (t : Fin cfg1.N) (p : Fin 1024) (q : Fin 2048) :
    (∑ kk : Fin 512, xblk V c t (ix2 p kk) * wblk V c t (ix2 q kk))
      = ∑ x ∈ Finset.range 512, Xn V c (t.val / 16 * 1024 + p.val) (t.val % 8 * 512 + x) * Wn V c (t.val / 8 % 2 * 2048 + q.val) (t.val % 8 * 512 + x) := by
  rw [Finset.sum_range]
  refine Finset.sum_congr rfl fun kk _ => ?_
  rw [xblk_apply, wblk_apply]

/-- After point `n` the accumulator holds the partial sums over the first `(n % 8 + 1) * 512` columns. -/
theorem acc_eq (c : Dev nD) : ∀ (n : ℕ) (hn : n < cfg1.N) (p : Fin 1024) (q : Fin 2048),
    (outsAt1 V c n hn).2 (ix2 p q)
      = ∑ i ∈ Finset.range ((n % 8 + 1) * 512), Xn V c (n / 16 * 1024 + p.val) i * Wn V c (n / 8 % 2 * 2048 + q.val) i
  | 0, hn, p, q => by
    rw [outsAt1_A V c ⟨0, hn⟩ rfl (by show ¬(0 : ℕ) % 8 = 7; decide)]
    dsimp only
    rw [sout1_A_eq]
    refine (pay2_apply (xblk V c ⟨0, hn⟩) (wblk V c ⟨0, hn⟩) _ p q).trans ?_
    rw [pay1_apply, zero_add, block_sum V c ⟨0, hn⟩ p q]
    refine Finset.sum_congr rfl fun x _ => ?_
    simp only [Nat.zero_mod, Nat.zero_div, Nat.zero_mul, Nat.zero_add]
  | n + 1, hn, p, q => by
    have hN : n + 1 < 128 := lt_of_lt_of_eq hn (show cfg1.N = 128 from N_1)
    by_cases h0 : (n + 1) % 8 = 0
    · have h1 : ¬(n + 1) % 8 = 7 := by omega
      rw [outsAt1_A V c ⟨n + 1, hn⟩ h0 h1]
      dsimp only
      rw [sout1_A_eq]
      refine (pay2_apply (xblk V c ⟨n + 1, hn⟩) (wblk V c ⟨n + 1, hn⟩) _ p q).trans ?_
      rw [pay1_apply, zero_add, block_sum V c ⟨n + 1, hn⟩ p q]
      dsimp only
      rw [h0]
      refine Finset.sum_congr rfl fun x _ => ?_
      simp only [Nat.zero_mul, Nat.zero_add]
    · have ih := acc_eq c n (Nat.lt_of_succ_lt hn) p q
      have e1 : (n + 1) / 16 = n / 16 := by omega
      have e2 : (n + 1) / 8 % 2 = n / 8 % 2 := by omega
      have e3 : (n + 1) % 8 = n % 8 + 1 := by omega
      have split : ((n + 1) % 8 + 1) * 512 = (n % 8 + 1) * 512 + 512 := by omega
      by_cases h1 : (n + 1) % 8 = 7
      · rw [outsAt1_C V c ⟨n + 1, hn⟩ h0 h1]
        dsimp only
        rw [sout1_C_eq]
        refine (pay2_apply (xblk V c ⟨n + 1, hn⟩) (wblk V c ⟨n + 1, hn⟩) _ p q).trans ?_
        rw [block_sum V c ⟨n + 1, hn⟩ p q]
        dsimp only
        rw [split, Finset.sum_range_add, e1, e2, e3]
        exact congrArg (· + _) ih
      · rw [outsAt1_B V c ⟨n + 1, hn⟩ h0 h1]
        dsimp only
        rw [sout1_B_eq]
        refine (pay2_apply (xblk V c ⟨n + 1, hn⟩) (wblk V c ⟨n + 1, hn⟩) _ p q).trans ?_
        rw [block_sum V c ⟨n + 1, hn⟩ p q]
        dsimp only
        rw [split, Finset.sum_range_add, e1, e2, e3]
        exact congrArg (· + _) ih

/-! ## The result array -/

/-- The layer as contents of the result's buffer. -/
def G (c : Dev nD) : Vec Ideal S8192x4096 .f32 := fun i =>
  Cert.Spec.layer (fun a b => Xa V c (ix2 a b)) (fun a b => Wa V c (ix2 a b)) (fun a => Ba V c (ix1 a))
    ⟨(i 0).val, (i 0).isLt⟩ ⟨(i 1).val, (i 1).isLt⟩

/-- The whole sum over the 4096 columns, by natural-number coordinates. -/
theorem full_sum (c : Dev nD) (r : Fin 8192) (j : Fin 4096) :
    (∑ i ∈ Finset.range 4096, Xn V c r.val i * Wn V c j.val i) = ∑ k : Fin 4096, Xa V c (ix2 r k) * Wa V c (ix2 j k) := by
  rw [Finset.sum_range]
  refine Finset.sum_congr rfl fun k _ => ?_
  unfold Xn Wn
  rw [dif_pos ⟨r.isLt, k.isLt⟩, dif_pos ⟨j.isLt, k.isLt⟩]

/-- The last step's output entry from the accumulator's and the blocks'. -/
theorem out_apply (b : Vec Ideal S2048 .f32) (x : Vec Ideal S1024x512 .f32) (w : Vec Ideal S2048x512 .bf16)
    (s : Vec Ideal S1024x2048 .f32) (p : Fin 1024) (q : Fin 2048) :
    k1_pay3 b (k1_pay2 x w s) (ix2 p q) = (s (ix2 p q) + ∑ kk : Fin 512, x (ix2 p kk) * w (ix2 q kk)) + b (ix1 q) := by
  rw [pay3_apply, pay2_apply]

/-- What a last step writes back is its block of the layer. -/
theorem flushed_eq (c : Dev nD) (t : Fin cfg1.N) (hf : (cfg1.win 3).flush t = true) :
    (dat1 (F := Ideal) V c).flushed 3 t = ((cfg1.win 3).blk t).view.read (Elt Ideal) (G V c) := by
  have h1 : t.val % 8 = 7 := (flush1_3 t).mp hf
  have h0 : ¬t.val % 8 = 0 := by omega
  have hi := idx1 t
  have ht := lt128 t
  show (cfg1.win 3).cut (grid1.coords t) ((dat1 V c).after 3 t) = _
  rw [after1_3, outsAt1_C V c t h0 h1]
  dsimp only
  rw [out1_C_eq]
  funext y
  obtain ⟨p, q, rfl⟩ : ∃ (p : Fin 1024) (q : Fin 2048), y = ix2 p q := ⟨y 0, y 1, eq_ix2 y⟩
  rw [View.read_apply]
  refine (out_apply (bblk V c t) (xblk V c t) (wblk V c t) _ p q).trans ?_
  have hacc := acc_eq V c (t.val - 1) (Nat.lt_of_le_of_lt (Nat.sub_le _ _) t.isLt) p q
  have e1 : (t.val - 1) / 16 = t.val / 16 := by omega
  have e2 : (t.val - 1) / 8 % 2 = t.val / 8 % 2 := by omega
  have e3 : ((t.val - 1) % 8 + 1) * 512 = 3584 := by omega
  have e4 : t.val % 8 * 512 = 3584 := by omega
  rw [e1, e2, e3] at hacc
  rw [hacc, block_sum V c t p q, bblk_apply V c t q, e4, ← Finset.sum_range_add]
  have hp := p.isLt
  have hq := q.isLt
  have hr : t.val / 16 * 1024 + p.val < 8192 := by omega
  have hj : t.val / 8 % 2 * 2048 + q.val < 4096 := by omega
  have hemb : ((cfg1.win 3).blk t).view.emb (ix2 p q) = ix2 (⟨t.val / 16 * 1024 + p.val, hr⟩ : Fin 8192) (⟨t.val / 8 % 2 * 2048 + q.val, hj⟩ : Fin 4096) := by
    funext a
    apply Fin.ext
    match a with
    | ⟨0, _⟩ => show win1_3.index t 0 * 1024 + 1 * p.val = t.val / 16 * 1024 + p.val; rw [hi.2.2.2.2.2.1]; omega
    | ⟨1, _⟩ => show win1_3.index t 1 * 2048 + 1 * q.val = t.val / 8 % 2 * 2048 + q.val; rw [hi.2.2.2.2.2.2.1]; omega
  refine Eq.trans ?_ (congrArg (G V c) hemb).symm
  show _ = Cert.Spec.layer _ _ _ (⟨t.val / 16 * 1024 + p.val, hr⟩ : Fin 8192) (⟨t.val / 8 % 2 * 2048 + q.val, hj⟩ : Fin 4096)
  unfold Cert.Spec.layer
  rw [show (3584 + 512 : ℕ) = 4096 from rfl, full_sum V c ⟨t.val / 16 * 1024 + p.val, hr⟩ ⟨t.val / 8 % 2 * 2048 + q.val, hj⟩]
  unfold Bn
  rw [dif_pos hj]

/-- Every entry of the result is in some last step's block. -/
theorem cover (i : S8192x4096.Idx) :
    ∃ t : Fin cfg1.N, (cfg1.win 3).flush t = true ∧ i ∈ ((cfg1.win 3).blk t).view.set := by
  have h0 : (i 0 : Nat) < 8192 := (i 0).isLt
  have h1 : (i 1 : Nat) < 4096 := (i 1).isLt
  have hN : cfg1.N = 128 := N_1
  let t : Fin cfg1.N := ⟨((i 0 : Nat) / 1024 * 2 + (i 1 : Nat) / 2048) * 8 + 7, by rw [hN]; omega⟩
  have htv : t.val = ((i 0 : Nat) / 1024 * 2 + (i 1 : Nat) / 2048) * 8 + 7 := rfl
  have hi := idx1 t
  refine ⟨t, (flush1_3 t).mpr (by rw [htv]; omega), ?_⟩
  show i ∈ ((View.whole main_v1).slice (win1_3.rect t)).set
  rw [View.set_slice_whole, Rect.mem_set_unit]
  intro a
  match a with
  | ⟨0, _⟩ =>
    show win1_3.index t 0 * win1_3.size 0 ≤ (i 0 : Nat) ∧ (i 0 : Nat) < win1_3.index t 0 * win1_3.size 0 + win1_3.xsize (grid1.coords t) 0
    rw [hi.2.2.2.2.2.1, hi.2.2.2.2.2.2.2.1, show win1_3.size 0 = 1024 from rfl, htv]; omega
  | ⟨1, _⟩ =>
    show win1_3.index t 1 * win1_3.size 1 ≤ (i 1 : Nat) ∧ (i 1 : Nat) < win1_3.index t 1 * win1_3.size 1 + win1_3.xsize (grid1.coords t) 1
    rw [hi.2.2.2.2.2.2.1, hi.2.2.2.2.2.2.2.2, show win1_3.size 1 = 2048 from rfl, htv]; omega

/-- The result array after the region. -/
theorem final1 (c : Dev nD) : (dat1 (F := Ideal) V c).arrAt 3 cfg1.N = G V c :=
  (dat1 (F := Ideal) V c).arrAt_eq_of_cover 3 (G V c) (flushed_eq V c) cover

/-- After the second region's write-backs the result's buffer holds, at (r, j), the sum over k of the input's (r, k)
    times the second operand's (j, k), plus the bias's j. -/
theorem final1_apply (c : Dev nD) (r : Fin 8192) (j : Fin 4096) :
    ((dat1 (F := Ideal) V c).arrAt 3 cfg1.N : S8192x4096.Idx → EReal) (ix2 r j)
      = Cert.Spec.layer (fun a b => (V c main_arg0 : S8192x4096.Idx → EReal) (ix2 a b))
          (fun a b => (V c main_v0 : S4096x4096.Idx → EReal) (ix2 a b))
          (fun a => (V c main_arg2 : S4096.Idx → EReal) (ix1 a)) r j := by
  rw [final1 V c]
  rfl

end Cert.KernelIdeal.Val1

end
-- ==== Proof.RefRead.lean ====
/-
  The reference program's result, entry by entry: the same dequantised weight and the same layer.
-/
import proofs.«145101_j19799799234864_1_alg».proof.Proof.Gen.ReferenceIdeal.Read
import proofs.«145101_j19799799234864_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-- The array of groups reduces along its lanes to one entry per group. -/
theorem groups_reduce : S131072x128.Reduces [1] S131072 := by decide

/-- Group `g` with lane `l` put back on the reduced axis is the entry (g, l) of the array of groups. -/
theorem lift_group (h : S131072x128.Reduces [1] S131072) (g : Fin 131072) (l : Fin (S131072x128.size 1)) :
    h.lift (ix1 g) l = ix2 g (⟨l.val, l.isLt⟩ : Fin 128) := by
  funext c
  apply Fin.ext
  rw [h.lift_val]
  match c with
  | ⟨0, _⟩ => rfl
  | ⟨1, _⟩ => rfl

/-- The reduce over a group's lanes is the group's largest absolute value: the fold of `max` from minus infinity
    over the absolute values of the group's 128 entries. -/
theorem ref_gmax (W : (⟨S4096x4096, .f32⟩ : BufTy).Contents (Elt Ideal)) (g : Fin 131072) :
    val_main_v2 (F := Ideal) W (ix1 g)
      = Cert.Spec.gmax (fun l => val_main_v0 (F := Ideal) W (ix2 g l)) := by
  unfold val_main_v2
  rw [Host.reduce_eq_fold_single FloatOps.maximumf _ _ reducesTo_S131072x128_S131072_d1 groups_reduce h_S_]
  have hf : (val_main_v1 (F := Ideal) W ∘ groups_reduce.lift (ix1 g))
      = fun l : Fin 128 => FloatOps.absf (F := Ideal) (φ := .f32) (val_main_v0 (F := Ideal) W (ix2 g l)) :=
    funext fun l => by
      show val_main_v1 (F := Ideal) W (groups_reduce.lift (ix1 g) l) = _
      rw [lift_group, val_main_v1_apply]
      rfl
  unfold Cert.Spec.gmax
  exact congrArg (fun f => Finset.fold max (FloatOps.ofBits (F := Ideal) .f32 0xFF800000#32) f (Finset.univ : Finset (Fin 128))) hf

/-- The scale column at group `g`: the group's largest absolute value over 7, or 1 where that is not positive. -/
theorem ref_scale (W : (⟨S4096x4096, .f32⟩ : BufTy).Contents (Elt Ideal)) (g : Fin 131072) (z : Fin 1) :
    val_main_v9 (F := Ideal) W (ix2 g z)
      = Cert.Spec.gscale (fun l => val_main_v0 (F := Ideal) W (ix2 g l)) := by
  have e3 : idx_main_v3 (ix2 g z) = ix1 g :=
    funext fun a => Fin.ext (by match a with | ⟨0, _⟩ => rfl)
  rw [val_main_v9_apply, val_main_v7_apply, val_main_v5_apply, val_main_v3_apply, val_main_v4_apply,
    val_main_cst_0_apply, val_main_v6_apply, val_main_cst_1_apply, val_main_v8_apply, val_main_cst_2_apply,
    e3, ref_gmax]
  rfl

/-- The entry (g, l) of the array of groups, quantised against the group's scale and dequantised. -/
theorem ref_group_entry (W : (⟨S4096x4096, .f32⟩ : BufTy).Contents (Elt Ideal)) (g : Fin 131072) (l : Fin 128) :
    val_main_v15 (F := Ideal) W (ix2 g l)
      = Cert.Spec.qd (Cert.Spec.gscale (fun l' => val_main_v0 (F := Ideal) W (ix2 g l')))
          (val_main_v0 (F := Ideal) W (ix2 g l)) := by
  have e10 : idx_main_v10 (ix2 g l) = ix2 g (0 : Fin 1) :=
    funext fun a => Fin.ext (by match a with | ⟨0, _⟩ => rfl | ⟨1, _⟩ => rfl)
  have e14 : idx_main_v14 (ix2 g l) = ix2 g (0 : Fin 1) :=
    funext fun a => Fin.ext (by match a with | ⟨0, _⟩ => rfl | ⟨1, _⟩ => rfl)
  rw [val_main_v15_apply, val_main_v13_apply, val_main_call2_v4_apply, val_main_call2_v3_apply, val_main_c_3_apply,
    val_main_call2_v2_apply, val_main_call2_v1_apply, val_main_call2_v0_apply, val_main_c_apply,
    val_main_v12_apply, val_main_v11_apply, val_main_v10_apply, val_main_v14_apply, e10, e14, ref_scale]
  rfl

/-- The reference's dequantised weight (its reshape to groups of 128, the group-wise arithmetic, the reshape back) at
    (j, k) is the entry (j, k) of the weight quantised against its group's scale and dequantised. -/
theorem ref_wdq (W : (⟨S4096x4096, .f32⟩ : BufTy).Contents (Elt Ideal)) (j k : Fin 4096) :
    val_main_v16 (F := Ideal) W (ix2 j k) = Cert.Spec.wdq (fun a b => W (ix2 a b)) j k := by
  have hj := j.isLt
  have hk := k.isLt
  -- entry (j, k) of the weight lies in group j * 32 + k / 128, at lane k % 128
  have e16 : idx_main_v16 (ix2 j k)
      = ix2 (⟨j.val * 32 + k.val / 128, by omega⟩ : Fin 131072) (⟨k.val % 128, Nat.mod_lt _ (by decide)⟩ : Fin 128) :=
    funext fun a => Fin.ext (by
      match a with
      | ⟨0, _⟩ => show (j.val * 4096 + k.val) / 128 = j.val * 32 + k.val / 128; omega
      | ⟨1, _⟩ => show (j.val * 4096 + k.val) % 128 = k.val % 128; omega)
  -- lane l of that group is the entry (j, k / 128 * 128 + l) of the weight
  have e0 : ∀ l : Fin 128, val_main_v0 (F := Ideal) W (ix2 (⟨j.val * 32 + k.val / 128, by omega⟩ : Fin 131072) l)
      = W (ix2 j (⟨k.val / 128 * 128 + l.val, by have := l.isLt; omega⟩ : Fin 4096)) := by
    intro l
    have hl := l.isLt
    rw [val_main_v0_apply]
    refine congrArg W (funext fun a => Fin.ext ?_)
    match a with
    | ⟨0, _⟩ => show ((j.val * 32 + k.val / 128) * 128 + l.val) / 4096 = j.val; omega
    | ⟨1, _⟩ => show ((j.val * 32 + k.val / 128) * 128 + l.val) % 4096 = k.val / 128 * 128 + l.val; omega
  have ek : (⟨k.val / 128 * 128 + k.val % 128, by omega⟩ : Fin 4096) = k := Fin.ext (by show k.val / 128 * 128 + k.val % 128 = k.val; omega)
  rw [val_main_v16_apply, e16, ref_group_entry, e0 ⟨k.val % 128, Nat.mod_lt _ (by decide)⟩]
  simp only [e0]
  unfold Cert.Spec.wdq Cert.Spec.grp
  rw [ek]

/-- The reference's result at (r, j) is the layer over its dequantised weight. -/
theorem ref_layer (X : (⟨S8192x4096, .f32⟩ : BufTy).Contents (Elt Ideal)) (W : (⟨S4096x4096, .f32⟩ : BufTy).Contents (Elt Ideal))
    (B : (⟨S4096, .f32⟩ : BufTy).Contents (Elt Ideal)) (r : Fin 8192) (j : Fin 4096) :
    val_main_v21 (F := Ideal) X W B (ix2 r j)
      = Cert.Spec.layer (fun a b => X (ix2 a b)) (fun a b => val_main_v16 (F := Ideal) W (ix2 a b)) (fun a => B (ix1 a)) r j := by
  -- the contraction reads x at (r, k) and the transposed weight at (k, j), that is the weight at (j, k)
  have el : ∀ k : Fin 4096, lidx_main_v18 (ix2 r j) k = ix2 r k := fun k =>
    funext fun a => Fin.ext (by match a with | ⟨0, _⟩ => rfl | ⟨1, _⟩ => rfl)
  have er : ∀ k : Fin 4096, idx_main_v17 (ridx_main_v18 (ix2 r j) k) = ix2 j k := fun k =>
    funext fun a => Fin.ext (by match a with | ⟨0, _⟩ => rfl | ⟨1, _⟩ => rfl)
  -- the bias is broadcast along the rows: entry (r, j) reads b at j
  have eb : idx_main_v19 (idx_main_v20 (ix2 r j)) = ix1 j :=
    funext fun a => Fin.ext (by match a with | ⟨0, _⟩ => rfl)
  rw [val_main_v21_apply, val_main_v18_apply, val_main_v20_apply, val_main_v19_apply, eb]
  simp only [val_main_v17_apply, el, er]
  rfl

end Cert.ReferenceIdeal.RefValue

end
-- ==== Proof.Algebraic.lean ====
/-
  The two idealized programs compute one function.

  The kernel's result buffer ends at the second region's folded write-backs, which at (r, j) is the layer over the
  input, the first region's result and the bias; the first region's result at (j, k) is the dequantised weight. The
  reference's result at (r, j) is the layer over its own dequantised weight, which at (j, k) is the same entry. With
  the arguments agreeing, the two results agree entry by entry.
-/
import proofs.«145101_j19799799234864_1_alg».proof.Proof.Run
import proofs.«145101_j19799799234864_1_alg».proof.Proof.ValK0
import proofs.«145101_j19799799234864_1_alg».proof.Proof.ValK1
import proofs.«145101_j19799799234864_1_alg».proof.Proof.RefRead
import proofs.«145101_j19799799234864_1_alg».proof.Defs
import proofs.«145101_j19799799234864_1_alg».proof.Proof.Gen.Pre_finite_inputs
import proofs.«145101_j19799799234864_1_alg».proof.Proof.Gen.ReferenceIdeal.Run

set_option maxRecDepth 16384

noncomputable section

namespace Cert.Proof.Alg

open Idealize.ShloMosaic Idealize.ShloMosaic.TcCoe Idealize.ShloMosaic.ValueIdx Idealize.SL.Sem

/-- The kernel's final result, entry by entry, from the launch memory. -/
theorem kernel_result (m : (ℓ : Loc Cert.KernelIdeal.nD Cert.KernelIdeal.τ Cert.KernelIdeal.sig) → Buf (Elt Ideal) ℓ) (c : Dev Cert.KernelIdeal.nD)
    (r : Fin 8192) (j : Fin 4096) :
    ((Cert.KernelIdeal.Hand.dat1 (F := Ideal) (Cert.KernelIdeal.Hand.VB m) c).arrAt 3 Cert.KernelIdeal.cfg1.N : Cert.KernelIdeal.S8192x4096.Idx → EReal) (ix2 r j)
      = Cert.Spec.layer (fun a b => (m ((c.tc : Thread Cert.KernelIdeal.nD Cert.KernelIdeal.τ).loc Cert.KernelIdeal.main_arg0) : Cert.KernelIdeal.S8192x4096.Idx → EReal) (ix2 a b))
          (Cert.Spec.wdq (fun a b => (m ((c.tc : Thread Cert.KernelIdeal.nD Cert.KernelIdeal.τ).loc Cert.KernelIdeal.main_arg1) : Cert.KernelIdeal.S4096x4096.Idx → EReal) (ix2 a b)))
          (fun a => (m ((c.tc : Thread Cert.KernelIdeal.nD Cert.KernelIdeal.τ).loc Cert.KernelIdeal.main_arg2) : Cert.KernelIdeal.S4096.Idx → EReal) (ix1 a)) r j := by
  rw [Cert.KernelIdeal.Val1.final1_apply, Cert.KernelIdeal.Hand.VB_main_arg0, Cert.KernelIdeal.Hand.VB_main_arg2,
    Cert.KernelIdeal.Hand.VB_main_v0]
  congr 1
  funext a b
  exact Cert.KernelIdeal.Val0.final0_apply (Cert.KernelIdeal.Hand.VA m) c a b

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (Cert.KernelIdeal.Hand.dat1 (F := Ideal) (Cert.KernelIdeal.Hand.VB m) c).arrAt 3 Cert.KernelIdeal.cfg1.N,
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2]
  funext i
  obtain ⟨r, j, rfl⟩ : ∃ (r : Fin 8192) (j : Fin 4096), i = ix2 r j := ⟨i 0, i 1, eq_ix2 i⟩
  have hk := kernel_result m c r j
  generalize hX : m ((c.tc : Thread Cert.KernelIdeal.nD Cert.KernelIdeal.τ).loc Cert.KernelIdeal.main_arg0) = X at hk ⊢
  generalize hW : m ((c.tc : Thread Cert.KernelIdeal.nD Cert.KernelIdeal.τ).loc Cert.KernelIdeal.main_arg1) = W at hk ⊢
  generalize hB : m ((c.tc : Thread Cert.KernelIdeal.nD Cert.KernelIdeal.τ).loc Cert.KernelIdeal.main_arg2) = B at hk ⊢
  have hr := Cert.ReferenceIdeal.RefValue.ref_layer X W B r j
  have hw : (fun a b => Cert.ReferenceIdeal.Read.val_main_v16 (F := Ideal) W (ix2 a b)) = Cert.Spec.wdq (fun a b => W (ix2 a b)) :=
    funext fun a => funext fun b => Cert.ReferenceIdeal.RefValue.ref_wdq W a b
  rw [hw] at hr
  exact hr.trans hk.symm

end Cert.Proof.Alg

end
-- ==== Proof.lean ====
/-
  The certificate's five claims.

  Both kernel programs (the word-level one and its idealization print the same text) run as two kernel regions in a
  row; each region's body obligation is discharged point by point, the second region's invariant carrying its
  accumulator between grid points, and the run over the two regions leaves every argument as launched. The reference
  is a host program whose run terminates with the arguments unchanged. The idealization rewrote nothing. At the ideal
  values both programs compute, entry (r, j), the sum over k of x(r, k) times the group-wise quantised and
  dequantised w(j, k), plus b(j).
-/
import proofs.«145101_j19799799234864_1_alg».proof.Defs
import proofs.«145101_j19799799234864_1_alg».proof.Proof.KRun
import proofs.«145101_j19799799234864_1_alg».proof.Proof.Run
import proofs.«145101_j19799799234864_1_alg».proof.Proof.Algebraic
import proofs.«145101_j19799799234864_1_alg».proof.Proof.Gen.ReferenceIdeal.Run
import proofs.«145101_j19799799234864_1_alg».proof.Proof.Gen.Pre_finite_inputs

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Alg.algebraic⟩

end Cert.Proof

end
